-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512x512 .f32) (main_arg13 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x512 .f32) (main_arg1 : FVec F S32768x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩

abbrev nBuf : Space → Nat
  | .hbm => 21
  | .vmem => 18
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .f32⟩
  | .local _ .vmem, ⟨17, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x512.size a ≤ S32768x512.size a
  hwx0_14 : ∀ i : grid0.Coords, EltTy.bits .f32 = 32 ∨ (Rect.block (s := S32768x512) S1024x512.size (cc0_transform_14 i) (hinb0_14 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1024x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S32768x512, .f32⟩
  | .hbm, ⟨16, _⟩ => ⟨S1x512, .f32⟩
  | .hbm, ⟨17, _⟩ => ⟨S32768x512, .f32⟩
  | .hbm, ⟨18, _⟩ => ⟨S32768x512, .f32⟩
  | .hbm, ⟨19, _⟩ => ⟨S512x512, .f32⟩
  | .hbm, ⟨20, _⟩ => ⟨S32768x512, .f32⟩
  | .hbm, ⟨21, _⟩ => ⟨S32768x512, .f32⟩
  | .hbm, ⟨22, _⟩ => ⟨S1x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S_, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S512x512, .f32⟩
  | .hbm, ⟨34, _⟩ => ⟨S32768x512, .f32⟩
  | .hbm, ⟨35, _⟩ => ⟨S1x512, .f32⟩
  | .hbm, ⟨36, _⟩ => ⟨S32768x512, .f32⟩
  | .hbm, ⟨37, _⟩ => ⟨S32768x512, .f32⟩
  | .hbm, ⟨38, _⟩ => ⟨S512x512, .f32⟩
  | .hbm, ⟨39, _⟩ => ⟨S32768x512, .f32⟩
  | .hbm, ⟨40, _⟩ => ⟨S32768x512, .f32⟩
  | .hbm, ⟨41, _⟩ => ⟨S1x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S_, .f32⟩
  | .hbm, ⟨47, _⟩ => ⟨S32768x512, .f32⟩
  | .hbm, ⟨48, _⟩ => ⟨S32768x512, .f32⟩
  | .hbm, ⟨49, _⟩ => ⟨S_, .f32⟩
  | .hbm, ⟨50, _⟩ => ⟨S32768x512, .f32⟩
  | .hbm, ⟨51, _⟩ => ⟨S32768x512, .f32⟩
  | .hbm, ⟨52, _⟩ => ⟨S512x512, .f32⟩
  | .hbm, ⟨53, _⟩ => ⟨S32768x512, .f32⟩
  | .hbm, ⟨54, _⟩ => ⟨S1x512, .f32⟩
  | .hbm, ⟨55, _⟩ => ⟨S32768x512, .f32⟩
  | .hbm, ⟨56, _⟩ => ⟨S32768x512, .f32⟩
  | .hbm, ⟨57, _⟩ => ⟨S32768x512, .f32⟩
  | .hbm, ⟨58, _⟩ => ⟨S512x512, .f32⟩
  | .hbm, ⟨59, _⟩ => ⟨S32768x512, .f32⟩
  | .hbm, ⟨60, _⟩ => ⟨S32768x512, .f32⟩
  | .hbm, ⟨61, _⟩ => ⟨S1x512, .f32⟩
  | .hbm, ⟨62, _⟩ => ⟨S32768x512, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.Spec.lean ====
/-
  One step of a gated recurrent unit, entry by entry, on the extended reals.

  A batch row has an input row `x` and a state row `h`, each of 512 entries. Six 512 × 512 weight matrices and
  six bias vectors make three affine maps of the pair of rows, each "row times matrix transposed, twice, plus two
  biases":
      pre W U b c (x, h) [q] = Σₜ x[t] · W[q, t] + Σₜ h[t] · U[q, t] + (b[q] + c[q]).
  The update gate is `z = σ(pre Wz Uz …)`, the reset gate `r = σ(pre Wr Ur …)`, the candidate state
  `h̃ = tanh(pre Wh Uh … (x, h ⊙ r))` (the state row multiplied entry by entry by the reset gate before it meets
  `Uh`), and the new state is `h + z · (h̃ − h)`. Here `σ(v) = 1 / (1 + e^(−v))`.

  The sum of the four terms of `pre` may be taken in another grouping — matrix term, bias, matrix term, bias, from
  the left —: addition on the extended reals is commutative and associative whatever is infinite, so the two groupings
  agree with no hypothesis on the entries (`pre_regroup`).
-/
import Idealize.ShloMosaic.PureOps.Ideal
import Idealize.ShloMosaic.Lib.ValueIdx

noncomputable section

open scoped BigOperators

namespace Cert.Gru

open Idealize.ShloMosaic Idealize.ShloMosaic.ValueIdx

/-- The batch of rows: 32768 rows of 512 entries. -/
abbrev Rows : Shape := ⟨2, ![32768, 512]⟩
/-- A weight matrix. -/
abbrev Mat : Shape := ⟨2, ![512, 512]⟩
/-- A bias vector. -/
abbrev Vc : Shape := ⟨1, ![512]⟩

/-- A row against row `q` of a matrix: `Σₜ a[t] · W[q, t]`, entry `q` of `a Wᵀ`. -/
def rowDot (a : Fin 512 → EReal) (W : Mat.Idx → EReal) (q : Fin 512) : EReal :=
  ∑ t : Fin 512, a t * W (ix2 q t)

/-- An affine map of the pair of rows at entry `q`: the two matrix terms, then the two biases. -/
def pre (x h : Fin 512 → EReal) (W U : Mat.Idx → EReal) (b c : Fin 512 → EReal) (q : Fin 512) : EReal :=
  (rowDot x W q + rowDot h U q) + (b q + c q)

/-- The same four terms added from the left in the order matrix term, bias, matrix term, bias. -/
theorem pre_regroup (x h : Fin 512 → EReal) (W U : Mat.Idx → EReal) (b c : Fin 512 → EReal) (q : Fin 512) :
    ((rowDot x W q + b q) + rowDot h U q) + c q = pre x h W U b c q := by
  unfold pre
  rw [add_assoc (rowDot x W q + b q), add_add_add_comm]

/-- The reset gate of a pair of rows, entry `t`. -/
def reset (x h : Fin 512 → EReal) (Wr Ur : Mat.Idx → EReal) (br cr : Fin 512 → EReal) (t : Fin 512) : EReal :=
  Ideal.logistic (pre x h Wr Ur br cr t)

/-- The new state of a pair of rows at entry `q`: `h + z · (h̃ − h)`. -/
def step (x h : Fin 512 → EReal) (Wz Wr Wh Uz Ur Uh : Mat.Idx → EReal) (bz br bh cz cr ch : Fin 512 → EReal)
    (q : Fin 512) : EReal :=
  h q + Ideal.logistic (pre x h Wz Uz bz cz q)
    * (Ideal.tanh (pre x (fun t => h t * reset x h Wr Ur br cr t) Wh Uh bh ch q) - h q)

/-- The whole batch after the step, as one function of the fourteen arrays: row `i 0`, entry `i 1`. -/
def next (x h : Rows.Idx → EReal) (Wz : Mat.Idx → EReal) (bz : Vc.Idx → EReal) (Wr : Mat.Idx → EReal) (br : Vc.Idx → EReal)
    (Wh : Mat.Idx → EReal) (bh : Vc.Idx → EReal) (Uz : Mat.Idx → EReal) (cz : Vc.Idx → EReal) (Ur : Mat.Idx → EReal)
    (cr : Vc.Idx → EReal) (Uh : Mat.Idx → EReal) (ch : Vc.Idx → EReal) : Rows.Idx → EReal := fun i =>
  step (fun t => x (ix2 (i 0) t)) (fun t => h (ix2 (i 0) t)) Wz Wr Wh Uz Ur Uh
    (fun t => bz (ix1 t)) (fun t => br (ix1 t)) (fun t => bh (ix1 t))
    (fun t => cz (ix1 t)) (fun t => cr (ix1 t)) (fun t => ch (ix1 t)) (i 1)

/-- The float pattern of one is the real number one. -/
theorem one_word : Ideal.ofBits .f32 0x3F800000#32 = 1 := by
  simp [Ideal.ofBits, Ideal.ieee, -EReal.coe_mul]; norm_num

/-- `1 / (1 + e^(−v))` spelt with the pattern of one is the logistic function. -/
theorem logistic_spelt (v : EReal) :
    Ideal.div (Ideal.ofBits .f32 0x3F800000#32) (Ideal.ofBits .f32 0x3F800000#32 + Ideal.exp (-v)) = Ideal.logistic v := by
  rw [one_word]; rfl

end Cert.Gru

end
-- ==== Proof.LibStackDots.lean ====
/-
  Matrix products with a transposed operand, alone and over a stack, read at a row and a column.

  A matrix product accumulated into zeros, and the host's `dot_general` over a stack of matrices, are read
  on the extended reals at one output entry as the sum over the contracted coordinate `t` of the products of the
  two operands' entries. Which axis of each operand is contracted decides where `t` sits in each operand's index:
  with the left operand transposed (`Aᵀ B`) it is the left operand's ROW, `Σₜ A[t, p] · B[t, q]`; with neither
  transposed (`A B`) `Σₜ A[p, t] · B[t, q]`; with the right operand transposed (`A Bᵀ`) it is the right
  operand's COLUMN, `Σₜ A[p, t] · B[q, t]`. Over a stack the leading coordinate `g` is carried by both operands
  and the result. In each case the accumulator (if any) contributes `0`, and the sum over the one-axis contraction
  index is re-indexed by that axis's coordinate.
-/
import Idealize.ShloMosaic.PureOps.Ideal.Laws
import Idealize.ShloMosaic.Lib.ValueIdx

noncomputable section

open scoped BigOperators

namespace Idealize.ShloMosaic.StackDots

open Idealize.ShloMosaic Idealize.ShloMosaic.ValueIdx

/-! ## One matrix product into zeros -/

/-- `Aᵀ B` for a `K × M` matrix `A` and a `K × N` matrix `B` (both contracted on their rows), into zeros, at row `p`
    and column `q`, is `Σₜ A[t, p] · B[t, q]`. -/
theorem matmul_tn_zero_apply {φ₁ φ₂ : FTy} {M K N : Nat}
    (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂) (p : Fin M) (q : Fin N) :
    FloatOps.matmul (⟨[0], [0], [1], [1], [], [], w⟩ : DotDims ⟨2, ![K, M]⟩ ⟨2, ![K, N]⟩ ⟨2, ![M, N]⟩) prec A B (constant ⟨2, ![M, N]⟩ .f32 0x00000000#32) (ix2 p q)
      = ∑ t : Fin K, A (ix2 t p) * B (ix2 t q) := by
  rw [Ideal.matmul_constant_zero_apply,
    ← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun t _ => ?_
  have c := contrEquiv1_symm_val (⟨[0], [0], [1], [1], [], [], w⟩ : DotDims ⟨2, ![K, M]⟩ ⟨2, ![K, N]⟩ ⟨2, ![M, N]⟩) K rfl rfl t
  have l : (⟨[0], [0], [1], [1], [], [], w⟩ : DotDims ⟨2, ![K, M]⟩ ⟨2, ![K, N]⟩ ⟨2, ![M, N]⟩).lhsIdx (ix2 p q)
      ((contrEquiv1 _ K rfl rfl).symm t) = ix2 t p := by
    funext ax; apply Fin.ext
    match ax with
    | ⟨0, _⟩ => simp [DotDims.lhsIdx]; exact c
    | ⟨1, _⟩ => simp [DotDims.lhsIdx]; rfl
  have r : (⟨[0], [0], [1], [1], [], [], w⟩ : DotDims ⟨2, ![K, M]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A B` for an `M × K` matrix `A` and a `K × N` matrix `B` (the left operand's columns contracted with the right
    operand's rows), into zeros, at row `p` and column `q`, is `Σₜ A[p, t] · B[t, q]`. -/
theorem matmul_nn_zero_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    FloatOps.matmul (⟨[1], [0], [0], [1], [], [], w⟩ : DotDims ⟨2, ![M, K]⟩ ⟨2, ![K, N]⟩ ⟨2, ![M, N]⟩) prec A B (constant ⟨2, ![M, N]⟩ .f32 0x00000000#32) (ix2 p q)
      = ∑ t : Fin K, A (ix2 p t) * B (ix2 t q) := by
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A Bᵀ` for an `M × K` matrix `A` and an `N × K` matrix `B` (both contracted on their columns), into zeros, at row
    `p` and column `q`, is `Σₜ A[p, t] · B[q, t]`. -/
theorem matmul_nt_zero_apply {φ₁ φ₂ : FTy} {M K N : Nat}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec A B (constant ⟨2, ![M, N]⟩ .f32 0x00000000#32) (ix2 p q)
      = ∑ t : Fin K, A (ix2 p t) * B (ix2 q t) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun t _ => ?_
  have c := contrEquiv1_symm_val (⟨[1], [1], [0], [0], [], [], w⟩ : DotDims ⟨2, ![M, K]⟩ ⟨2, ![N, K]⟩ ⟨2, ![M, N]⟩) K rfl rfl t
  have l : (⟨[1], [1], [0], [0], [], [], w⟩ : DotDims ⟨2, ![M, K]⟩ ⟨2, ![N, K]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [1], [0], [0], [], [], w⟩ : DotDims ⟨2, ![M, K]⟩ ⟨2, ![N, K]⟩ ⟨2, ![M, N]⟩).rhsIdx (ix2 p q)
      ((contrEquiv1 _ K rfl rfl).symm t) = ix2 q t := by
    funext ax; apply Fin.ext
    match ax with
    | ⟨0, _⟩ => simp [DotDims.rhsIdx]; rfl
    | ⟨1, _⟩ => simp [DotDims.rhsIdx]; exact c
  rw [l, r]

/-! ## The product of two stacks, matrix by matrix -/

/-- `Aᵀ B` member by member, for a stack of `K × M` matrices and a stack of `K × N` matrices (batch axes 0 and 0, each
    member contracted on its rows): at member `g`, row `p` and column `q` it is `Σₜ A[g, t, p] · B[g, t, q]`. -/
theorem dotGeneral_stack_tn_apply {φ₁ φ₂ : FTy} {G M K N : Nat}
    (w : DotDims.WF ⟨3, ![G, K, M]⟩ ⟨3, ![G, K, N]⟩ ⟨3, ![G, M, N]⟩ [1] [1] [2] [2] [0] [0])
    (prec : Option ContractPrecision) (A : FVec Ideal ⟨3, ![G, K, M]⟩ φ₁) (B : FVec Ideal ⟨3, ![G, K, N]⟩ φ₂) (g : Fin G) (p : Fin M) (q : Fin N) :
    Host.dotGeneral (⟨[1], [1], [2], [2], [0], [0], w⟩ : DotDims ⟨3, ![G, K, M]⟩ ⟨3, ![G, K, N]⟩ ⟨3, ![G, M, N]⟩) prec A B (ix3 g p q)
      = ∑ t : Fin K, A (ix3 g t p) * B (ix3 g t q) := by
  show FloatOps.dotGeneral _ prec _ A B (ix3 g p q) = _
  rw [Ideal.dotGeneral_apply,
    ← Equiv.sum_comp (contrEquiv1 (⟨[1], [1], [2], [2], [0], [0], w⟩ : DotDims ⟨3, ![G, K, M]⟩ ⟨3, ![G, K, N]⟩ ⟨3, ![G, M, N]⟩) K rfl rfl).symm]
  refine Finset.sum_congr rfl fun t _ => ?_
  have c := contrEquiv1_symm_val (⟨[1], [1], [2], [2], [0], [0], w⟩ : DotDims ⟨3, ![G, K, M]⟩ ⟨3, ![G, K, N]⟩ ⟨3, ![G, M, N]⟩) K rfl rfl t
  have l : (⟨[1], [1], [2], [2], [0], [0], w⟩ : DotDims ⟨3, ![G, K, M]⟩ ⟨3, ![G, K, N]⟩ ⟨3, ![G, M, N]⟩).lhsIdx (ix3 g p q)
      ((contrEquiv1 _ K rfl rfl).symm t) = ix3 g t p := by
    funext ax; apply Fin.ext
    match ax with
    | ⟨0, _⟩ => simp [DotDims.lhsIdx]; rfl
    | ⟨1, _⟩ => simp [DotDims.lhsIdx]; exact c
    | ⟨2, _⟩ => simp [DotDims.lhsIdx]; rfl
  have r : (⟨[1], [1], [2], [2], [0], [0], w⟩ : DotDims ⟨3, ![G, K, M]⟩ ⟨3, ![G, K, N]⟩ ⟨3, ![G, M, N]⟩).rhsIdx (ix3 g p q)
      ((contrEquiv1 _ K rfl rfl).symm t) = ix3 g t q := by
    funext ax; apply Fin.ext
    match ax with
    | ⟨0, _⟩ => simp [DotDims.rhsIdx]; rfl
    | ⟨1, _⟩ => simp [DotDims.rhsIdx]; exact c
    | ⟨2, _⟩ => simp [DotDims.rhsIdx]; rfl
  rw [l, r]

/-- `A Bᵀ` member by member, for a stack of `M × K` matrices and a stack of `N × K` matrices (batch axes 0 and 0, each
    member contracted on its columns): at member `g`, row `p` and column `q` it is `Σₜ A[g, p, t] · B[g, q, t]`. -/
theorem dotGeneral_stack_nt_apply {φ₁ φ₂ : FTy} {G M K N : Nat}
    (w : DotDims.WF ⟨3, ![G, M, K]⟩ ⟨3, ![G, N, K]⟩ ⟨3, ![G, M, N]⟩ [2] [2] [1] [1] [0] [0])
    (prec : Option ContractPrecision) (A : FVec Ideal ⟨3, ![G, M, K]⟩ φ₁) (B : FVec Ideal ⟨3, ![G, N, K]⟩ φ₂) (g : Fin G) (p : Fin M) (q : Fin N) :
    Host.dotGeneral (⟨[2], [2], [1], [1], [0], [0], w⟩ : DotDims ⟨3, ![G, M, K]⟩ ⟨3, ![G, N, K]⟩ ⟨3, ![G, M, N]⟩) prec A B (ix3 g p q)
      = ∑ t : Fin K, A (ix3 g p t) * B (ix3 g q t) := by
  show FloatOps.dotGeneral _ prec _ A B (ix3 g p q) = _
  rw [Ideal.dotGeneral_apply,
    ← Equiv.sum_comp (contrEquiv1 (⟨[2], [2], [1], [1], [0], [0], w⟩ : DotDims ⟨3, ![G, M, K]⟩ ⟨3, ![G, N, K]⟩ ⟨3, ![G, M, N]⟩) K rfl rfl).symm]
  refine Finset.sum_congr rfl fun t _ => ?_
  have c := contrEquiv1_symm_val (⟨[2], [2], [1], [1], [0], [0], w⟩ : DotDims ⟨3, ![G, M, K]⟩ ⟨3, ![G, N, K]⟩ ⟨3, ![G, M, N]⟩) K rfl rfl t
  have l : (⟨[2], [2], [1], [1], [0], [0], w⟩ : DotDims ⟨3, ![G, M, K]⟩ ⟨3, ![G, N, K]⟩ ⟨3, ![G, M, N]⟩).lhsIdx (ix3 g p q)
      ((contrEquiv1 _ K rfl rfl).symm t) = ix3 g p t := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c
  have r : (⟨[2], [2], [1], [1], [0], [0], w⟩ : DotDims ⟨3, ![G, M, K]⟩ ⟨3, ![G, N, K]⟩ ⟨3, ![G, M, N]⟩).rhsIdx (ix3 g p q)
      ((contrEquiv1 _ K rfl rfl).symm t) = ix3 g q t := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c
  rw [l, r]

end Idealize.ShloMosaic.StackDots

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.KernelValue.lean ====
/-
  What the kernel's body computes from its fifteen blocks, entry by entry.

  At a grid point the body holds a block of 1024 input rows `x`, the matching 1024 state rows `h`, the six weight
  matrices whole and the six biases as single rows. Each affine layer is two matrix products into zero accumulators,
  each contracting the rows' entries with a weight matrix's SECOND axis (`a Wᵀ`: entry `(p, q)` is
  `Σₜ a[p, t] · W[q, t]`), their sum, plus the two biases added to each other first and then repeated down the rows.
  The narrowing of the operands to a shorter float format before each product is the identity on the extended reals.
  So at row `p` and column `q` of the block the body's stored value is the gated recurrent step
  (`Cert.Gru.step`) of rows `p` of the two row blocks.
-/
import proofs.«177971_j61375082660542_1_alg».proof.Proof.Gen.KernelIdeal.Skeleton
import proofs.«177971_j61375082660542_1_alg».proof.Proof.Spec
import proofs.«177971_j61375082660542_1_alg».proof.Proof.LibStackDots
import proofs.«177971_j61375082660542_1_alg».proof.Proof.LibMatrixReads

noncomputable section

open scoped BigOperators

namespace Cert.Gru.Kernel

open Cert.KernelIdeal Cert.KernelIdeal.Gen
open Idealize.ShloMosaic Idealize.ShloMosaic.ValueIdx

/-- One matrix product of the body at row `p`, column `q`. -/
theorem product_apply (a : FVec Ideal S1024x512 .bf16) (W : FVec Ideal S512x512 .bf16) (p : Fin 1024) (q : Fin 512) :
    matmul (F := Ideal) dot_S1024x512_S512x512_S1024x512_1_1_0_0_n_n none a W (constant S1024x512 .f32 0x00000000#32) (ix2 p q)
      = rowDot (fun t => a (ix2 p t)) W q :=
  StackDots.matmul_nt_zero_apply _ none a W p q

/-- The two biases of a layer, added and repeated down the rows, at row `p`, column `q`. -/
theorem biases_apply (b c : FVec Ideal S1x512 .f32) (p : Fin 1024) (q : Fin 512) :
    broadcastTo S1024x512 (addf (F := Ideal) (shapeCast S1x512 b shapeCasts_S1x512_S1x512) (shapeCast S1x512 c shapeCasts_S1x512_S1x512))
        broadcasts_S1x512_S1024x512 (ix2 p q)
      = b (ix2 (0 : Fin 1) q) + c (ix2 (0 : Fin 1) q) := by
  rw [MatrixReads.rowBroadcast_apply 1024 512 _ _ p q, shapeCast_self, shapeCast_self]
  rfl

/-- One affine layer of the body at row `p`, column `q`. -/
theorem affine_apply (a h : FVec Ideal S1024x512 .bf16) (W U : FVec Ideal S512x512 .bf16) (b c : FVec Ideal S1x512 .f32)
    (p : Fin 1024) (q : Fin 512) :
    addf (F := Ideal)
        (addf (matmul dot_S1024x512_S512x512_S1024x512_1_1_0_0_n_n none a W (constant S1024x512 .f32 0x00000000#32))
          (matmul dot_S1024x512_S512x512_S1024x512_1_1_0_0_n_n none h U (constant S1024x512 .f32 0x00000000#32)))
        (broadcastTo S1024x512 (addf (shapeCast S1x512 b shapeCasts_S1x512_S1x512) (shapeCast S1x512 c shapeCasts_S1x512_S1x512))
          broadcasts_S1x512_S1024x512) (ix2 p q)
      = pre (fun t => a (ix2 p t)) (fun t => h (ix2 p t)) W U (fun t => b (ix2 (0 : Fin 1) t)) (fun t => c (ix2 (0 : Fin 1) t)) q := by
  unfold pre
  rw [addf_apply, addf_apply, product_apply, product_apply, biases_apply]

/-- The body's reset gate at row `p`, column `t` of the block. -/
theorem reset_apply (xb hb : Vec Ideal S1024x512 .f32) (Wr Ur : Vec Ideal S512x512 .f32) (br cr : Vec Ideal S1x512 .f32)
    (p : Fin 1024) (t : Fin 512) :
    logistic (F := Ideal)
        (addf
          (addf (matmul dot_S1024x512_S512x512_S1024x512_1_1_0_0_n_n none (k0_pay2 xb) (k0_pay5 Wr) (constant S1024x512 .f32 0x00000000#32))
            (matmul dot_S1024x512_S512x512_S1024x512_1_1_0_0_n_n none (k0_pay3 hb) (k0_pay8 Ur) (constant S1024x512 .f32 0x00000000#32)))
          (broadcastTo S1024x512 (addf (shapeCast S1x512 br shapeCasts_S1x512_S1x512) (shapeCast S1x512 cr shapeCasts_S1x512_S1x512))
            broadcasts_S1x512_S1024x512)) (ix2 p t)
      = reset (fun s => xb (ix2 p s)) (fun s => hb (ix2 p s)) Wr Ur (fun s => br (ix2 (0 : Fin 1) s)) (fun s => cr (ix2 (0 : Fin 1) s)) t := by
  show Ideal.logistic (addf (F := Ideal) _ _ (ix2 p t)) = _
  rw [affine_apply]
  rfl

/-- THE BODY'S STORED VALUE at row `p`, column `q` of the block is the gated recurrent step of rows `p` of the input
    and state blocks: three affine layers (the candidate's over the state row times the reset gate), `σ` on two of
    them, `tanh` on the third, and the blend `h + z · (h̃ − h)`. -/
theorem payload_apply (xb hb : Vec Ideal S1024x512 .f32) (Wz Wr Wh Uz Ur Uh : Vec Ideal S512x512 .f32)
    (bz br bh cz cr ch : Vec Ideal S1x512 .f32) (p : Fin 1024) (q : Fin 512) :
    k0_pay1 (F := Ideal) hb (k0_pay2 xb) (k0_pay3 hb) (k0_pay4 Wz) (k0_pay5 Wr) (k0_pay6 Wh) (k0_pay7 Uz) (k0_pay8 Ur) (k0_pay9 Uh)
        (k0_pay10 bz cz) (k0_pay11 br cr) (k0_pay12 bh ch) (ix2 p q)
      = step (fun t => xb (ix2 p t)) (fun t => hb (ix2 p t)) Wz Wr Wh Uz Ur Uh
          (fun t => bz (ix2 (0 : Fin 1) t)) (fun t => br (ix2 (0 : Fin 1) t)) (fun t => bh (ix2 (0 : Fin 1) t))
          (fun t => cz (ix2 (0 : Fin 1) t)) (fun t => cr (ix2 (0 : Fin 1) t)) (fun t => ch (ix2 (0 : Fin 1) t)) q := by
  unfold k0_pay1 k0_pay10 k0_pay11 k0_pay12 step
  dsimp only
  show hb (ix2 p q) + Ideal.logistic (addf (F := Ideal) _ _ (ix2 p q))
      * (Ideal.tanh (addf (F := Ideal) _ _ (ix2 p q)) - hb (ix2 p q)) = _
  rw [affine_apply, affine_apply]
  simp only [truncf_apply, mulf_apply, reset_apply]
  rfl

end Cert.Gru.Kernel

end
-- ==== Proof.Blocks.lean ====
/-
  From the kernel's blocks to its result array.

  The grid has 32 points. Point `t` stages rows `1024 t … 1024 t + 1023` of the input array and of the state array
  (block index `(t, 0)` of blocks of 1024 × 512), every weight matrix whole (block `(0, 0)`, the block being the
  array), and every bias as the single row a reshape made of it before the region (again block `(0, 0)`, whole);
  it writes back block `(t, 0)` of the result. So row `p` of the point's input block is row `1024 t + p` of the
  array, and what the point writes back, the body's stored value, is the gated recurrent step
  (`Cert.Gru.next`) of the fourteen argument arrays read through the result's block `(t, 0)`. The 32 blocks tile
  the 32768 rows — row `r` lies in the block of point `r / 1024` —, so after the run the result array is `next` of
  the arguments.
-/
import proofs.«177971_j61375082660542_1_alg».proof.Proof.Gen.KernelIdeal.Value
import proofs.«177971_j61375082660542_1_alg».proof.Proof.KernelValue
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Gru.Kernel

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 32 points -/

/-- The two row windows and the result window sit at block `(t, 0)`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0 :=
  (by decide +kernel : ∀ t : Fin grid0.N, _)

/-- The weight and bias windows sit at block `(0, 0)` at every point. -/
theorem idx_resident : ∀ t : Fin cfg0.N,
    (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0)
    ∧ (∀ a : Fin 2, win0_8.index t a = 0) ∧ (∀ a : Fin 2, win0_9.index t a = 0) ∧ (∀ a : Fin 2, win0_10.index t a = 0)
    ∧ (∀ a : Fin 2, win0_11.index t a = 0) ∧ (∀ a : Fin 2, win0_12.index t a = 0) ∧ (∀ a : Fin 2, win0_13.index t a = 0) :=
  (by decide +kernel : ∀ t : Fin grid0.N, _)

/-! ## The row blocks -/

/-- Row `p` of the input block at point `t` is row `1024 t + p` of the input array. -/
theorem x_rows (c : Dev nD) (t : Fin cfg0.N) (p : Fin 1024) (k : Fin 512) (P : Fin 32768) (hP : P.val = 1024 * t.val + p.val) :
    (iblk m c 0 t : Vec Ideal S1024x512 .f32) (ix2 p k) = (m ((c : Thread nD τ).loc main_arg0) : S32768x512.Idx → EReal) (ix2 P k) := by
  obtain ⟨e0, e1, -⟩ := idx_rows t
  unfold iblk
  rw [View.read_apply]
  show V m c main_arg0 _ = _
  rw [V_main_arg0]
  congr 1
  funext a
  apply Fin.ext
  match a with
  | ⟨0, _⟩ => show win0_0.index t 0 * 1024 + 1 * p.val = P.val; rw [e0, hP]; omega
  | ⟨1, _⟩ => show win0_0.index t 1 * 512 + 1 * k.val = k.val; rw [e1]; omega

/-- Row `p` of the state block at point `t` is row `1024 t + p` of the state array. -/
theorem h_rows (c : Dev nD) (t : Fin cfg0.N) (p : Fin 1024) (k : Fin 512) (P : Fin 32768) (hP : P.val = 1024 * t.val + p.val) :
    (iblk m c 1 t : Vec Ideal S1024x512 .f32) (ix2 p k) = (m ((c : Thread nD τ).loc main_arg1) : S32768x512.Idx → EReal) (ix2 P k) := by
  obtain ⟨-, -, e0, e1, -⟩ := idx_rows t
  unfold iblk
  rw [View.read_apply]
  show V m c main_arg1 _ = _
  rw [V_main_arg1]
  congr 1
  funext a
  apply Fin.ext
  match a with
  | ⟨0, _⟩ => show win0_1.index t 0 * 1024 + 1 * p.val = P.val; rw [e0, hP]; omega
  | ⟨1, _⟩ => show win0_1.index t 1 * 512 + 1 * k.val = k.val; rw [e1]; omega

/-! ## The weight matrices: each block is the whole array -/

theorem wz_block (c : Dev nD) (t : Fin cfg0.N) : (iblk m c 2 t : Vec Ideal S512x512 .f32) = m ((c : Thread nD τ).loc main_arg2) := by
  have hz' : (fun a => win0_2.index t a * main_arg2.ty.shape.size a) = fun _ => 0 :=
    funext fun a => by rw [(idx_resident t).1 a]; exact Nat.zero_mul _
  unfold iblk
  rw [← V_main_arg2 m c]
  exact Memref.read_access_unit_zero (Elt Ideal) main_arg2 hz' (fun a => by rw [congrFun hz' a]; simp) (V m c main_arg2)

theorem wr_block (c : Dev nD) (t : Fin cfg0.N) : (iblk m c 3 t : Vec Ideal S512x512 .f32) = m ((c : Thread nD τ).loc main_arg4) := by
  have hz' : (fun a => win0_3.index t a * main_arg4.ty.shape.size a) = fun _ => 0 :=
    funext fun a => by rw [(idx_resident t).2.1 a]; exact Nat.zero_mul _
  unfold iblk
  rw [← V_main_arg4 m c]
  exact Memref.read_access_unit_zero (Elt Ideal) main_arg4 hz' (fun a => by rw [congrFun hz' a]; simp) (V m c main_arg4)

theorem wh_block (c : Dev nD) (t : Fin cfg0.N) : (iblk m c 4 t : Vec Ideal S512x512 .f32) = m ((c : Thread nD τ).loc main_arg6) := by
  have hz' : (fun a => win0_4.index t a * main_arg6.ty.shape.size a) = fun _ => 0 :=
    funext fun a => by rw [(idx_resident t).2.2.1 a]; exact Nat.zero_mul _
  unfold iblk
  rw [← V_main_arg6 m c]
  exact Memref.read_access_unit_zero (Elt Ideal) main_arg6 hz' (fun a => by rw [congrFun hz' a]; simp) (V m c main_arg6)

theorem uz_block (c : Dev nD) (t : Fin cfg0.N) : (iblk m c 5 t : Vec Ideal S512x512 .f32) = m ((c : Thread nD τ).loc main_arg8) := by
  have hz' : (fun a => win0_5.index t a * main_arg8.ty.shape.size a) = fun _ => 0 :=
    funext fun a => by rw [(idx_resident t).2.2.2.1 a]; exact Nat.zero_mul _
  unfold iblk
  rw [← V_main_arg8 m c]
  exact Memref.read_access_unit_zero (Elt Ideal) main_arg8 hz' (fun a => by rw [congrFun hz' a]; simp) (V m c main_arg8)

theorem ur_block (c : Dev nD) (t : Fin cfg0.N) : (iblk m c 6 t : Vec Ideal S512x512 .f32) = m ((c : Thread nD τ).loc main_arg10) := by
  have hz' : (fun a => win0_6.index t a * main_arg10.ty.shape.size a) = fun _ => 0 :=
    funext fun a => by rw [(idx_resident t).2.2.2.2.1 a]; exact Nat.zero_mul _
  unfold iblk
  rw [← V_main_arg10 m c]
  exact Memref.read_access_unit_zero (Elt Ideal) main_arg10 hz' (fun a => by rw [congrFun hz' a]; simp) (V m c main_arg10)

theorem uh_block (c : Dev nD) (t : Fin cfg0.N) : (iblk m c 7 t : Vec Ideal S512x512 .f32) = m ((c : Thread nD τ).loc main_arg12) := by
  have hz' : (fun a => win0_7.index t a * main_arg12.ty.shape.size a) = fun _ => 0 :=
    funext fun a => by rw [(idx_resident t).2.2.2.2.2.1 a]; exact Nat.zero_mul _
  unfold iblk
  rw [← V_main_arg12 m c]
  exact Memref.read_access_unit_zero (Elt Ideal) main_arg12 hz' (fun a => by rw [congrFun hz' a]; simp) (V m c main_arg12)

/-! ## The biases: a reshape to one row before the region, then the whole row as the block -/

/-- What the region finds in each one-row bias array: the bias vector, reshaped. -/
theorem bz_row (c : Dev nD) : (V m c main_v0 : S1x512.Idx → EReal) = shapeCast S1x512 (m ((c : Thread nD τ).loc main_arg3)) shapeCasts_S512_S1x512 := by
  dsimp only [Gen.V, Gen.hostOps0]; after_results; rfl
theorem br_row (c : Dev nD) : (V m c main_v1 : S1x512.Idx → EReal) = shapeCast S1x512 (m ((c : Thread nD τ).loc main_arg5)) shapeCasts_S512_S1x512 := by
  dsimp only [Gen.V, Gen.hostOps0]; after_results; rfl
theorem bh_row (c : Dev nD) : (V m c main_v2 : S1x512.Idx → EReal) = shapeCast S1x512 (m ((c : Thread nD τ).loc main_arg7)) shapeCasts_S512_S1x512 := by
  dsimp only [Gen.V, Gen.hostOps0]; after_results; rfl
theorem cz_row (c : Dev nD) : (V m c main_v3 : S1x512.Idx → EReal) = shapeCast S1x512 (m ((c : Thread nD τ).loc main_arg9)) shapeCasts_S512_S1x512 := by
  dsimp only [Gen.V, Gen.hostOps0]; after_results; rfl
theorem cr_row (c : Dev nD) : (V m c main_v4 : S1x512.Idx → EReal) = shapeCast S1x512 (m ((c : Thread nD τ).loc main_arg11)) shapeCasts_S512_S1x512 := by
  dsimp only [Gen.V, Gen.hostOps0]; after_results; rfl
theorem ch_row (c : Dev nD) : (V m c main_v5 : S1x512.Idx → EReal) = shapeCast S1x512 (m ((c : Thread nD τ).loc main_arg13)) shapeCasts_S512_S1x512 := by
  dsimp only [Gen.V, Gen.hostOps0]; after_results; rfl

theorem bz_block (c : Dev nD) (t : Fin cfg0.N) (k : Fin 512) :
    (iblk m c 8 t : Vec Ideal S1x512 .f32) (ix2 (0 : Fin 1) k) = (m ((c : Thread nD τ).loc main_arg3) : S512.Idx → EReal) (ix1 k) := by
  have hz' : (fun a => win0_8.index t a * main_v0.ty.shape.size a) = fun _ => 0 :=
    funext fun a => by rw [(idx_resident t).2.2.2.2.2.2.1 a]; exact Nat.zero_mul _
  have e : (iblk m c 8 t : Vec Ideal S1x512 .f32) = V m c main_v0 := by
    unfold iblk
    exact Memref.read_access_unit_zero (Elt Ideal) main_v0 hz' (fun a => by rw [congrFun hz' a]; simp) (V m c main_v0)
  rw [e, bz_row]
  exact MatrixReads.rowOfVec_apply 512 _ _ k

theorem br_block (c : Dev nD) (t : Fin cfg0.N) (k : Fin 512) :
    (iblk m c 9 t : Vec Ideal S1x512 .f32) (ix2 (0 : Fin 1) k) = (m ((c : Thread nD τ).loc main_arg5) : S512.Idx → EReal) (ix1 k) := by
  have hz' : (fun a => win0_9.index t a * main_v1.ty.shape.size a) = fun _ => 0 :=
    funext fun a => by rw [(idx_resident t).2.2.2.2.2.2.2.1 a]; exact Nat.zero_mul _
  have e : (iblk m c 9 t : Vec Ideal S1x512 .f32) = V m c main_v1 := by
    unfold iblk
    exact Memref.read_access_unit_zero (Elt Ideal) main_v1 hz' (fun a => by rw [congrFun hz' a]; simp) (V m c main_v1)
  rw [e, br_row]
  exact MatrixReads.rowOfVec_apply 512 _ _ k

theorem bh_block (c : Dev nD) (t : Fin cfg0.N) (k : Fin 512) :
    (iblk m c 10 t : Vec Ideal S1x512 .f32) (ix2 (0 : Fin 1) k) = (m ((c : Thread nD τ).loc main_arg7) : S512.Idx → EReal) (ix1 k) := by
  have hz' : (fun a => win0_10.index t a * main_v2.ty.shape.size a) = fun _ => 0 :=
    funext fun a => by rw [(idx_resident t).2.2.2.2.2.2.2.2.1 a]; exact Nat.zero_mul _
  have e : (iblk m c 10 t : Vec Ideal S1x512 .f32) = V m c main_v2 := by
    unfold iblk
    exact Memref.read_access_unit_zero (Elt Ideal) main_v2 hz' (fun a => by rw [congrFun hz' a]; simp) (V m c main_v2)
  rw [e, bh_row]
  exact MatrixReads.rowOfVec_apply 512 _ _ k

theorem cz_block (c : Dev nD) (t : Fin cfg0.N) (k : Fin 512) :
    (iblk m c 11 t : Vec Ideal S1x512 .f32) (ix2 (0 : Fin 1) k) = (m ((c : Thread nD τ).loc main_arg9) : S512.Idx → EReal) (ix1 k) := by
  have hz' : (fun a => win0_11.index t a * main_v3.ty.shape.size a) = fun _ => 0 :=
    funext fun a => by rw [(idx_resident t).2.2.2.2.2.2.2.2.2.1 a]; exact Nat.zero_mul _
  have e : (iblk m c 11 t : Vec Ideal S1x512 .f32) = V m c main_v3 := by
    unfold iblk
    exact Memref.read_access_unit_zero (Elt Ideal) main_v3 hz' (fun a => by rw [congrFun hz' a]; simp) (V m c main_v3)
  rw [e, cz_row]
  exact MatrixReads.rowOfVec_apply 512 _ _ k

theorem cr_block (c : Dev nD) (t : Fin cfg0.N) (k : Fin 512) :
    (iblk m c 12 t : Vec Ideal S1x512 .f32) (ix2 (0 : Fin 1) k) = (m ((c : Thread nD τ).loc main_arg11) : S512.Idx → EReal) (ix1 k) := by
  have hz' : (fun a => win0_12.index t a * main_v4.ty.shape.size a) = fun _ => 0 :=
    funext fun a => by rw [(idx_resident t).2.2.2.2.2.2.2.2.2.2.1 a]; exact Nat.zero_mul _
  have e : (iblk m c 12 t : Vec Ideal S1x512 .f32) = V m c main_v4 := by
    unfold iblk
    exact Memref.read_access_unit_zero (Elt Ideal) main_v4 hz' (fun a => by rw [congrFun hz' a]; simp) (V m c main_v4)
  rw [e, cr_row]
  exact MatrixReads.rowOfVec_apply 512 _ _ k

theorem ch_block (c : Dev nD) (t : Fin cfg0.N) (k : Fin 512) :
    (iblk m c 13 t : Vec Ideal S1x512 .f32) (ix2 (0 : Fin 1) k) = (m ((c : Thread nD τ).loc main_arg13) : S512.Idx → EReal) (ix1 k) := by
  have hz' : (fun a => win0_13.index t a * main_v5.ty.shape.size a) = fun _ => 0 :=
    funext fun a => by rw [(idx_resident t).2.2.2.2.2.2.2.2.2.2.2 a]; exact Nat.zero_mul _
  have e : (iblk m c 13 t : Vec Ideal S1x512 .f32) = V m c main_v5 := by
    unfold iblk
    exact Memref.read_access_unit_zero (Elt Ideal) main_v5 hz' (fun a => by rw [congrFun hz' a]; simp) (V m c main_v5)
  rw [e, ch_row]
  exact MatrixReads.rowOfVec_apply 512 _ _ k

/-! ## What a point writes back, the cover, the array -/

/-- The step of the fourteen argument arrays as launched. -/
abbrev result (c : Dev nD) : S32768x512.Idx → EReal :=
  next (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- WHAT POINT `t` WRITES BACK is block `(t, 0)` of `result`. -/
theorem flushed_eq (c : Dev nD) (t : Fin cfg0.N) :
    (dats m 0 c).flushed 14 t = ((cfg0.win 14).blk t).view.read (Elt Ideal) (result m c) := by
  rw [flushed14]
  unfold out0_14
  rw [View.canon_unit_zero hz]
  simp only [View.ld_unit_zero (S := S1024x512) hz, View.ld_unit_zero (S := S512x512) hz, View.ld_unit_zero (S := S1x512) hz]
  refine funext fun (j : S1024x512.Idx) => ?_
  obtain ⟨p, q, rfl⟩ : ∃ (p : Fin 1024) (q : Fin 512), j = ix2 p q := ⟨j 0, j 1, eq_ix2 j⟩
  rw [View.read_apply]
  refine (payload_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) p q).trans ?_
  have hN : cfg0.N = 32 := N_0
  have ht : t.val < 32 := hN ▸ t.isLt
  obtain ⟨-, -, -, -, e0, e1⟩ := idx_rows t
  have hP : 1024 * t.val + p.val < 32768 := by have := p.isLt; omega
  have hemb : ((cfg0.win 14).blk t).view.emb (ix2 p q) = ix2 (⟨1024 * t.val + p.val, hP⟩ : Fin 32768) q := by
    funext a
    apply Fin.ext
    match a with
    | ⟨0, _⟩ => show win0_14.index t 0 * 1024 + 1 * p.val = 1024 * t.val + p.val; rw [e0]; omega
    | ⟨1, _⟩ => show win0_14.index t 1 * 512 + 1 * q.val = q.val; rw [e1]; omega
  show _ = result m c (((cfg0.win 14).blk t).view.emb (ix2 p q))
  rw [hemb]
  have hx := funext fun k => x_rows m c t p k ⟨1024 * t.val + p.val, hP⟩ rfl
  have hh := funext fun k => h_rows m c t p k ⟨1024 * t.val + p.val, hP⟩ rfl
  have hbz := funext fun k => bz_block m c t k
  have hbr := funext fun k => br_block m c t k
  have hbh := funext fun k => bh_block m c t k
  have hcz := funext fun k => cz_block m c t k
  have hcr := funext fun k => cr_block m c t k
  have hch := funext fun k => ch_block m c t k
  rw [hx, hh, wz_block, wr_block, wh_block, uz_block, ur_block, uh_block, hbz, hbr, hbh, hcz, hcr, hch]
  rfl

/-- An index of the result array lies in point `t`'s block iff each coordinate lies in the block's range on its axis. -/
theorem mem_block (t : Fin cfg0.N) (i : S32768x512.Idx) :
    i ∈ ((cfg0.win 14).blk t).view.set ↔ ∀ a : Fin 2, win0_14.index t a * S1024x512.size a ≤ (i a).val
      ∧ (i a).val < win0_14.index t a * S1024x512.size a + S1024x512.size a := by
  show i ∈ ((View.whole main_v6).slice (win0_14.rect t)).set ↔ _
  rw [View.set_slice_whole, Rect.mem_set_unit]
  exact Iff.rfl

/-- THE COVER: row `r` of the result lies in the block of point `r / 1024`. -/
theorem covered (i : S32768x512.Idx) :
    ∃ t : Fin cfg0.N, (cfg0.win 14).flush t = true ∧ i ∈ ((cfg0.win 14).blk t).view.set := by
  have hN : cfg0.N = 32 := N_0
  have hi0 : (i 0).val < 32768 := idx2_lt0 i
  have hi1 : (i 1).val < 512 := idx2_lt1 i
  have hlt : (i 0).val / 1024 < cfg0.N := by rw [hN]; omega
  obtain ⟨-, -, -, -, e0, e1⟩ := idx_rows ⟨(i 0).val / 1024, hlt⟩
  have e0' : win0_14.index ⟨(i 0).val / 1024, hlt⟩ (0 : Fin 2) = (i 0).val / 1024 := e0
  refine ⟨⟨(i 0).val / 1024, hlt⟩, flush0_14 _, ?_⟩
  rw [mem_block]
  intro a
  match a with
  | ⟨0, _⟩ =>
    show win0_14.index ⟨(i 0).val / 1024, hlt⟩ 0 * 1024 ≤ (i 0).val
      ∧ (i 0).val < win0_14.index ⟨(i 0).val / 1024, hlt⟩ 0 * 1024 + 1024
    rw [e0']; omega
  | ⟨1, _⟩ =>
    show win0_14.index ⟨(i 0).val / 1024, hlt⟩ 1 * 512 ≤ (i 1).val
      ∧ (i 1).val < win0_14.index ⟨(i 0).val / 1024, hlt⟩ 1 * 512 + 512
    rw [e1]; omega

/-- THE RESULT ARRAY after the run is the step of the arguments. -/
theorem final (c : Dev nD) : (dats m 0 c).arrAt 14 cfg0.N = result m c :=
  (dats m 0 c).arrAt_eq_of_cover 14 (result m c) (fun t _ => flushed_eq m c t) covered

/-- The kernel's run, read: the result array at the step of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun _ h c => ⟨(h c).1.trans (final m c), (h c).2⟩) (run_blocks m ρ)

end Cert.Gru.Kernel

end
-- ==== Proof.LibHostDot.lean ====
/-
  The host's matrix product `A B` read at a row and a column.

  For an `M × K` matrix `A` and a `K × N` matrix `B`, the host's `dot_general` contracting the left operand's
  columns with the right operand's rows is, on the extended reals, `Σₜ A[p, t] · B[t, q]` at row `p` and column
  `q`: the sum over the one-axis contraction index is re-indexed by that axis's coordinate `t`, which sits in the
  second place of the left operand's index and in the first place of the right operand's.
-/
import Idealize.ShloMosaic.PureOps.Ideal.Laws
import Idealize.ShloMosaic.Lib.ValueIdx

noncomputable section

open scoped BigOperators

namespace Idealize.ShloMosaic.HostDot

open Idealize.ShloMosaic Idealize.ShloMosaic.ValueIdx

/-- `A B` on the host, at row `p` and column `q`, is `Σₜ A[p, t] · B[t, q]`. -/
theorem dotGeneral_nn_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    Host.dotGeneral (⟨[1], [0], [0], [1], [], [], w⟩ : DotDims ⟨2, ![M, K]⟩ ⟨2, ![K, N]⟩ ⟨2, ![M, N]⟩) prec A B (ix2 p q)
      = ∑ t : Fin K, A (ix2 p t) * B (ix2 t q) := by
  show FloatOps.dotGeneral _ prec _ A B (ix2 p q) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

end Idealize.ShloMosaic.HostDot

end
-- ==== Proof.LibRowAffine.lean ====
/-
  Rows through an affine layer, read at a row and a column.

  Three readings on arrays of literal extents. The host's `A Wᵀ` written as "transpose `W`, then the plain product":
  at row `p` and column `q` it is `Σₜ A[p, t] · W[q, t]` on the extended reals — the transpose swaps the two
  coordinates of `W`, and the plain product contracts `A`'s columns with the transposed matrix's rows. A vector made
  a single row and that row repeated down `m` rows reads the vector at the column. A scalar constant spread over any
  shape reads the constant's value.
-/
import Idealize.ShloMosaic.PureOps.Ideal.Laws
import Idealize.ShloMosaic.Lib.ValueIdx
import Idealize.ShloMosaic.Lib.Pipeline.Value
import proofs.«177971_j61375082660542_1_alg».proof.Proof.LibHostDot
import proofs.«177971_j61375082660542_1_alg».proof.Proof.LibMatrixReads

noncomputable section

open scoped BigOperators

namespace Idealize.ShloMosaic.RowAffine

open Idealize.ShloMosaic Idealize.ShloMosaic.ValueIdx

/-- `A Wᵀ` on the host, the transpose taken first: at row `p` and column `q` it is `Σₜ A[p, t] · W[q, t]`. -/
theorem dotGeneral_transposed_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (W : FVec Ideal ⟨2, ![N, K]⟩ φ₂)
    (ht : (⟨2, ![N, K]⟩ : Shape).Transposes [1, 0] ⟨2, ![K, N]⟩) (p : Fin M) (q : Fin N) :
    Host.dotGeneral (⟨[1], [0], [0], [1], [], [], w⟩ : DotDims ⟨2, ![M, K]⟩ ⟨2, ![K, N]⟩ ⟨2, ![M, N]⟩) prec A
        (transpose ⟨2, ![K, N]⟩ [1, 0] W ht) (ix2 p q)
      = ∑ t : Fin K, A (ix2 p t) * W (ix2 q t) := by
  rw [HostDot.dotGeneral_nn_apply]
  refine Finset.sum_congr rfl fun t _ => ?_
  rw [MatrixReads.transpose2_apply]

/-- A vector laid as a single row, the row then repeated down `m` rows: at row `p` and column `q` it is the
    vector's entry `q`. -/
theorem vecDownRows_apply {α : Type} (m n : Nat) (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 b) (ix2 p q) = b (ix1 q) := by
  have hq := q.isLt
  rw [broadcastInDim_apply ![0, 1] h2 _ (ix2 p q) (ix2 (0 : Fin 1) q) (fun a => by
    match a with
    | ⟨0, _⟩ => show (0 : Nat) = if (1 : Nat) = 1 then 0 else p.val; rw [if_pos rfl]
    | ⟨1, _⟩ =>
      show q.val = if n = 1 then 0 else q.val
      split_ifs with hn
      · omega
      · rfl)]
  exact broadcastInDim_apply ![1] h1 b (ix2 (0 : Fin 1) q) (ix1 q) (fun a => by
    match a with
    | ⟨0, _⟩ =>
      show q.val = if n = 1 then 0 else q.val
      split_ifs with hn
      · omega
      · rfl)

/-- A scalar float constant spread over a shape reads the constant's value at every index. -/
theorem scalarSpread_apply {t : Shape} (wd : BitVec 32) (h : (⟨0, ![]⟩ : Shape).BroadcastsInDim t ![]) (i : t.Idx) :
    broadcastInDim t ![] h (constant (F := Ideal) ⟨0, ![]⟩ .f32 wd) i = Ideal.ofBits .f32 wd :=
  broadcastInDim_apply ![] h _ i ix0 (fun a => a.elim0)

end Idealize.ShloMosaic.RowAffine

end
-- ==== Proof.RefValue.lean ====
/-
  The reference program computes the gated recurrent step (`Cert.Gru.next`), entry by entry.

  Its result is `h + z · (h̃ − h)` written with whole-array operations: each affine layer is
  `a @ W.T + b + h @ U.T + c` — two products with a transposed weight matrix and two bias vectors spread over the
  rows, added from the left —, each gate's `σ` is spelt `1 / (1 + exp(−v))`, and the candidate's second product
  takes `h ⊙ r` for its left operand. Read at row `p` and column `q`, a product with a transposed matrix is the sum
  `Σₜ a[p, t] · W[q, t]`, a spread bias is its entry `q`, so the layer is the four-term sum the specification
  regroups (`Cert.Gru.pre_regroup`), and the spelt-out `σ` is the logistic function.
-/
import proofs.«177971_j61375082660542_1_alg».proof.Proof.Gen.ReferenceIdeal.Read
import proofs.«177971_j61375082660542_1_alg».proof.Proof.Spec
import proofs.«177971_j61375082660542_1_alg».proof.Proof.LibRowAffine

noncomputable section

open scoped BigOperators

namespace Cert.Gru.Ref

open Cert.ReferenceIdeal Cert.ReferenceIdeal.Gen Cert.ReferenceIdeal.Read
open Idealize.ShloMosaic Idealize.ShloMosaic.ValueIdx Idealize.ShloMosaic.RowAffine

/-- A batch array, a weight matrix and a bias vector of the reference program, on the extended reals. -/
abbrev RowsArr := FVec Ideal S32768x512 .f32
abbrev MatArr := FVec Ideal S512x512 .f32
abbrev VecArr := FVec Ideal S512 .f32

/-- One product with a transposed weight matrix at row `p`, column `q`. -/
theorem product_apply (a : RowsArr) (W : MatArr) (p : Fin 32768) (q : Fin 512) :
    Host.dotGeneral (F := Ideal) dot_S32768x512_S512x512_S32768x512_1_0_0_1_n_n none a
        (transpose S512x512 [1, 0] W transposes_S512x512_S512x512_1_0) (ix2 p q)
      = rowDot (fun t => a (ix2 p t)) W q :=
  dotGeneral_transposed_apply _ none a W _ p q

/-- One bias spread over the rows at row `p`, column `q`. -/
theorem bias_apply (b : VecArr) (p : Fin 32768) (q : Fin 512) :
    broadcastInDim S32768x512 ![0, 1] bcast_S1x512_S32768x512_0_1 (broadcastInDim S1x512 ![1] bcast_S512_S1x512_1 b) (ix2 p q)
      = b (ix1 q) :=
  vecDownRows_apply 32768 512 b _ _ p q

/-- The reference's affine layer at row `p`, column `q`: the four terms added from the left, regrouped. -/
theorem affine_apply (a h : RowsArr) (W U : MatArr) (b c : VecArr) (p : Fin 32768) (q : Fin 512) :
    addf (F := Ideal) (addf (addf (Host.dotGeneral (F := Ideal) dot_S32768x512_S512x512_S32768x512_1_0_0_1_n_n none a
            (transpose S512x512 [1, 0] W transposes_S512x512_S512x512_1_0))
          (broadcastInDim S32768x512 ![0, 1] bcast_S1x512_S32768x512_0_1 (broadcastInDim S1x512 ![1] bcast_S512_S1x512_1 b)))
        (Host.dotGeneral (F := Ideal) dot_S32768x512_S512x512_S32768x512_1_0_0_1_n_n none h
            (transpose S512x512 [1, 0] U transposes_S512x512_S512x512_1_0)))
      (broadcastInDim S32768x512 ![0, 1] bcast_S1x512_S32768x512_0_1 (broadcastInDim S1x512 ![1] bcast_S512_S1x512_1 c)) (ix2 p q)
      = pre (fun t => a (ix2 p t)) (fun t => h (ix2 p t)) W U (fun t => b (ix1 t)) (fun t => c (ix1 t)) q := by
  rw [← pre_regroup, addf_apply, addf_apply, addf_apply, product_apply, product_apply, bias_apply, bias_apply]

/-- The reference's spelling of `σ` over a whole array, at an index. -/
theorem sigma_apply (v : RowsArr) (i : S32768x512.Idx) :
    Host.divf (F := Ideal) (broadcastInDim S32768x512 ![] bcast_S_S32768x512 (constant S_ .f32 0x3F800000#32))
        (addf (broadcastInDim S32768x512 ![] bcast_S_S32768x512 (constant S_ .f32 0x3F800000#32)) (Host.exp (Host.negf v))) i
      = Ideal.logistic (v i) := by
  show Ideal.div (broadcastInDim S32768x512 ![] bcast_S_S32768x512 (constant (F := Ideal) S_ .f32 0x3F800000#32) i)
      (broadcastInDim S32768x512 ![] bcast_S_S32768x512 (constant (F := Ideal) S_ .f32 0x3F800000#32) i + Ideal.exp (-(v i))) = _
  rw [scalarSpread_apply, logistic_spelt]

/-- The update gate as the reference computes it, at row `p`, column `q`. -/
theorem update_apply (x h : RowsArr) (Wz : MatArr) (bz : VecArr) (Uz : MatArr) (cz : VecArr) (p : Fin 32768) (q : Fin 512) :
    val_main_v16 (F := Ideal) x h Wz bz Uz cz (ix2 p q)
      = Ideal.logistic (pre (fun t => x (ix2 p t)) (fun t => h (ix2 p t)) Wz Uz (fun t => bz (ix1 t)) (fun t => cz (ix1 t)) q) := by
  unfold val_main_v16 val_main_v15 val_main_cst_0 val_main_v14 val_main_v13 val_main_cst val_main_v12 val_main_v11
    val_main_v10 val_main_v9 val_main_v8 val_main_v7 val_main_v6 val_main_v5 val_main_v4 val_main_v3 val_main_v2
    val_main_v1 val_main_v0
  rw [sigma_apply, affine_apply]

/-- The reset gate as the reference computes it, at row `p`, column `t`. -/
theorem reset_apply (x h : RowsArr) (Wr : MatArr) (br : VecArr) (Ur : MatArr) (cr : VecArr) (p : Fin 32768) (t : Fin 512) :
    val_main_v33 (F := Ideal) x h Wr br Ur cr (ix2 p t)
      = reset (fun s => x (ix2 p s)) (fun s => h (ix2 p s)) Wr Ur (fun s => br (ix1 s)) (fun s => cr (ix1 s)) t := by
  unfold val_main_v33 val_main_v32 val_main_cst_2 val_main_v31 val_main_v30 val_main_cst_1 val_main_v29 val_main_v28
    val_main_v27 val_main_v26 val_main_v25 val_main_v24 val_main_v23 val_main_v22 val_main_v21 val_main_v20 val_main_v19
    val_main_v18 val_main_v17 reset
  rw [sigma_apply, affine_apply]

/-- The candidate state's affine layer as the reference computes it: its second product's left operand is `h ⊙ r`. -/
theorem candidate_apply (x h : RowsArr) (Wr : MatArr) (br : VecArr) (Wh : MatArr) (bh : VecArr) (Ur : MatArr) (cr : VecArr)
    (Uh : MatArr) (ch : VecArr) (p : Fin 32768) (q : Fin 512) :
    val_main_v45 (F := Ideal) x h Wr br Wh bh Ur cr Uh ch (ix2 p q)
      = pre (fun t => x (ix2 p t))
          (fun t => h (ix2 p t) * reset (fun s => x (ix2 p s)) (fun s => h (ix2 p s)) Wr Ur (fun s => br (ix1 s)) (fun s => cr (ix1 s)) t)
          Wh Uh (fun t => bh (ix1 t)) (fun t => ch (ix1 t)) q := by
  unfold val_main_v45 val_main_v44 val_main_v43 val_main_v42 val_main_v41 val_main_v40 val_main_v39 val_main_v38
    val_main_v37 val_main_v36 val_main_v35 val_main_v34
  rw [affine_apply]
  congr 1
  funext t
  rw [mulf_apply, reset_apply]

/-- THE REFERENCE IS THE STEP: its result array is `next` of its fourteen arguments. -/
theorem result_eq (x h : RowsArr) (Wz : MatArr) (bz : VecArr) (Wr : MatArr) (br : VecArr) (Wh : MatArr) (bh : VecArr)
    (Uz : MatArr) (cz : VecArr) (Ur : MatArr) (cr : VecArr) (Uh : MatArr) (ch : VecArr) :
    val_main_v49 (F := Ideal) x h Wz bz Wr br Wh bh Uz cz Ur cr Uh ch = next x h Wz bz Wr br Wh bh Uz cz Ur cr Uh ch := by
  funext i
  obtain ⟨p, q, rfl⟩ : ∃ (p : Fin 32768) (q : Fin 512), i = ix2 p q := ⟨i 0, i 1, eq_ix2 i⟩
  show h (ix2 p q) + val_main_v16 (F := Ideal) x h Wz bz Uz cz (ix2 p q)
      * (Ideal.tanh (val_main_v45 (F := Ideal) x h Wr br Wh bh Ur cr Uh ch (ix2 p q)) - h (ix2 p q)) = _
  rw [update_apply, candidate_apply]
  rfl

end Cert.Gru.Ref

end
-- ==== Proof.lean ====
/-
  A gated recurrent unit's step as one Pallas kernel, against its jnp reference.

  For a batch of 32768 rows, an input array `x` and a state array `h` of 512 columns, six 512 × 512 weight
  matrices and six bias vectors, the new state is `h + z · (h̃ − h)` with the update gate
  `z = σ(x Wzᵀ + h Uzᵀ + bz + cz)`, the reset gate `r = σ(x Wrᵀ + h Urᵀ + br + cr)` and the candidate
  `h̃ = tanh(x Whᵀ + (h ⊙ r) Uhᵀ + bh + ch)`. The kernel computes it for 1024 rows at a grid point, the weights
  resident, each affine layer as two matrix products, their sum, and the two biases added first; the reference
  computes it on the whole arrays, each layer's four terms added from the left with the biases in between, and
  `σ` spelt `1 / (1 + exp(−v))`. On the extended reals the two are one function of the fourteen arrays,
  `Cert.Gru.next` (Proof/Spec.lean): sums may be regrouped whatever is infinite, the spelt-out `σ` is the logistic
  function, and narrowing an operand's float format is the identity. No finiteness of the inputs is used.

  Proof/KernelValue.lean reads the kernel body's stored value at an entry; Proof/Blocks.lean carries it from the 32
  row blocks to the result array; Proof/RefValue.lean reads the reference's result at an entry. The three frames
  are the generated ones (the reference's is its run with the result dropped); the kernel and its idealization
  are one text, so nothing is owed for the idealization.
-/
import proofs.«177971_j61375082660542_1_alg».proof.Defs
import proofs.«177971_j61375082660542_1_alg».proof.Proof.Gen.Kernel
import proofs.«177971_j61375082660542_1_alg».proof.Proof.Gen.Kernel.Skeleton
import proofs.«177971_j61375082660542_1_alg».proof.Proof.Gen.Kernel.Launch
import proofs.«177971_j61375082660542_1_alg».proof.Proof.Gen.Kernel.Points
import proofs.«177971_j61375082660542_1_alg».proof.Proof.Gen.Kernel.Frame
import proofs.«177971_j61375082660542_1_alg».proof.Proof.Gen.KernelIdeal
import proofs.«177971_j61375082660542_1_alg».proof.Proof.Gen.KernelIdeal.Skeleton
import proofs.«177971_j61375082660542_1_alg».proof.Proof.Gen.KernelIdeal.Launch
import proofs.«177971_j61375082660542_1_alg».proof.Proof.Gen.KernelIdeal.Points
import proofs.«177971_j61375082660542_1_alg».proof.Proof.Gen.KernelIdeal.Frame
import proofs.«177971_j61375082660542_1_alg».proof.Proof.Gen.ReferenceIdeal
import proofs.«177971_j61375082660542_1_alg».proof.Proof.Gen.Pre_finite_inputs
import proofs.«177971_j61375082660542_1_alg».proof.Proof.Gen.KernelIdeal.Value
import proofs.«177971_j61375082660542_1_alg».proof.Proof.Gen.ReferenceIdeal.Run
import proofs.«177971_j61375082660542_1_alg».proof.Proof.Gen.ReferenceIdeal.Read
import proofs.«177971_j61375082660542_1_alg».proof.Proof.Blocks
import proofs.«177971_j61375082660542_1_alg».proof.Proof.RefValue
import Idealize.ShloMosaic.Adequacy
import Idealize.ShloMosaic.Init

noncomputable section

namespace Cert.Proof

open Idealize.ShloMosaic Idealize.SL.Sem

/-- The reference terminates with its arguments unchanged: its run, the two result clauses dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the fourteen arguments both programs end with the step of those arguments
    (`Cert.Gru.next`) in their result, the kernel's by its blocks, the reference's entry by entry. -/
theorem algebraic : Cert.algebraic_KernelIdeal_ReferenceIdeal := by
  intro m ρ m' ρ' _ hagree
  refine ⟨fun c => Cert.Gru.Kernel.result m c, fun c => Cert.Gru.Kernel.result m c, ?_, ?_⟩
  · exact (θ_run Cert.KernelIdeal.defs _ _).mono (fun _ h c => ⟨(h c).1, (h c).1, (h c).2⟩) (Cert.Gru.Kernel.run m ρ)
  · have key : ∀ c : Dev Cert.ReferenceIdeal.nD,
        Cert.Gru.next (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
        = Cert.Gru.Kernel.result m c := by
      intro c
      obtain ⟨a0, a1, a2, a3, a4, a5, a6, a7, a8, a9, a10, a11, a12, a13⟩ := hagree c
      rw [a0, a1, a2, a3, a4, a5, a6, a7, a8, a9, a10, a11, a12, a13]
    refine (θ_run Cert.ReferenceIdeal.defs _ _).mono (fun _ h c => ⟨(h c).1.trans ?_, (h c).2.1.trans ?_, (h c).2.2⟩)
      (Cert.ReferenceIdeal.Value.run (F := Ideal) m' ρ')
    · exact ((Cert.ReferenceIdeal.Read.val_main_v49_eq _ _ _ _ _ _ _ _ _ _ _ _ _ _).trans
        (Cert.Gru.Ref.result_eq _ _ _ _ _ _ _ _ _ _ _ _ _ _)).trans (key c)
    · exact ((Cert.ReferenceIdeal.Read.val_main_v49_eq _ _ _ _ _ _ _ _ _ _ _ _ _ _).trans
        (Cert.Gru.Ref.result_eq _ _ _ _ _ _ _ _ _ _ _ _ _ _)).trans (key c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
